-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x4096 : Shape := ⟨3, ![64, 4, 4096]⟩
abbrev S64x384 : Shape := ⟨2, ![64, 384]⟩
abbrev S4x8x4 : Shape := ⟨3, ![4, 8, 4]⟩
abbrev S_ : Shape := ⟨0, ![]⟩

class Facts : Prop where
  bcast_S_S64x4x4096 : S_.BroadcastsInDim S64x4x4096 (![] : Fin 0 → Fin S64x4x4096.rank)
  reducesTo_S64x4x4096_S_d0_1_2 : S64x4x4096.ReducesTo [0, 1, 2] S_
  h_S_ : 0 < S_.numel
  bcast_S_S64x384 : S_.BroadcastsInDim S64x384 (![] : Fin 0 → Fin S64x384.rank)
  reducesTo_S64x384_S_d0_1 : S64x384.ReducesTo [0, 1] S_

variable [Facts]

def fn {F : FTy → Type} [FloatOps F] (main_arg0 : FVec F S64x4x4096 .f32) (main_arg1 : FVec F S64x384 .f32) (main_arg2 : IVec S4x8x4 32) (main_arg3 : IVec S4x8x4 32) (main_arg4 : IVec S4x8x4 32) : IVec S_ 1 :=
  let main_v0 : FVec F S64x4x4096 .f32 := Host.absf main_arg0
  let main_cst : FVec F S_ .f32 := constant S_ .f32 0x7F800000#32
  let main_v1 : FVec F S64x4x4096 .f32 := broadcastInDim S64x4x4096 ![] bcast_S_S64x4x4096 main_cst
  let main_v2 : IVec S64x4x4096 1 := cmpf .olt main_v0 main_v1
  let main_c : IVec S_ 1 := constantI S_ 1 1#1
  let main_v3 : IVec S_ 1 := (fun x v => Host.reduce IntOp.andi x v reducesTo_S64x4x4096_S_d0_1_2 h_S_) main_v2 main_c
  let main_v4 : FVec F S64x384 .f32 := Host.absf main_arg1
  let main_cst_0 : FVec F S_ .f32 := constant S_ .f32 0x7F800000#32
  let main_v5 : FVec F S64x384 .f32 := broadcastInDim S64x384 ![] bcast_S_S64x384 main_cst_0
  let main_v6 : IVec S64x384 1 := cmpf .olt main_v4 main_v5
  let main_c_1 : IVec S_ 1 := constantI S_ 1 1#1
  let main_v7 : IVec S_ 1 := (fun x v => Host.reduce IntOp.andi x v reducesTo_S64x384_S_d0_1 h_S_) main_v6 main_c_1
  let main_v8 : IVec S_ 1 := andi main_v3 main_v7
  main_v8
-- ==== Kernel.lean ====
abbrev S64x4x4096 : Shape := ⟨3, ![64, 4, 4096]⟩
abbrev S64x384 : Shape := ⟨2, ![64, 384]⟩
abbrev S4x8x4 : Shape := ⟨3, ![4, 8, 4]⟩
abbrev S_ : Shape := ⟨0, ![]⟩
abbrev S4x8x4x1 : Shape := ⟨4, ![4, 8, 4, 1]⟩
abbrev S64x4x8x4 : Shape := ⟨4, ![64, 4, 8, 4]⟩
abbrev S256x32 : Shape := ⟨2, ![256, 32]⟩
abbrev S256x4096 : Shape := ⟨2, ![256, 4096]⟩
abbrev S64x4096 : Shape := ⟨2, ![64, 4096]⟩
abbrev S64x32 : Shape := ⟨2, ![64, 32]⟩
abbrev S64x1 : Shape := ⟨2, ![64, 1]⟩

abbrev nBuf : Space → Nat
  | .hbm => 38
  | .vmem => 10
  | .smem => 0
  | _ => 0

abbrev bufTy : (tb : Table) → Fin (tcTables nBuf tb) → BufTy
  | .hbm, ⟨0, _⟩ => ⟨S64x4x4096, .f32⟩
  | .hbm, ⟨1, _⟩ => ⟨S64x384, .f32⟩
  | .hbm, ⟨2, _⟩ => ⟨S4x8x4, .i32⟩
  | .hbm, ⟨3, _⟩ => ⟨S4x8x4, .i32⟩
  | .hbm, ⟨4, _⟩ => ⟨S4x8x4, .i32⟩
  | .hbm, ⟨5, _⟩ => ⟨S_, .i32⟩
  | .hbm, ⟨6, _⟩ => ⟨S4x8x4, .i32⟩
  | .hbm, ⟨7, _⟩ => ⟨S4x8x4, .i1⟩
  | .hbm, ⟨8, _⟩ => ⟨S_, .i32⟩
  | .hbm, ⟨9, _⟩ => ⟨S4x8x4, .i32⟩
  | .hbm, ⟨10, _⟩ => ⟨S4x8x4, .i32⟩
  | .hbm, ⟨11, _⟩ => ⟨S4x8x4, .i32⟩
  | .hbm, ⟨12, _⟩ => ⟨S4x8x4x1, .i32⟩
  | .hbm, ⟨13, _⟩ => ⟨S64x4x8x4, .f32⟩
  | .hbm, ⟨14, _⟩ => ⟨S_, .i32⟩
  | .hbm, ⟨15, _⟩ => ⟨S4x8x4, .i32⟩
  | .hbm, ⟨16, _⟩ => ⟨S4x8x4, .i1⟩
  | .hbm, ⟨17, _⟩ => ⟨S_, .i32⟩
  | .hbm, ⟨18, _⟩ => ⟨S4x8x4, .i32⟩
  | .hbm, ⟨19, _⟩ => ⟨S4x8x4, .i32⟩
  | .hbm, ⟨20, _⟩ => ⟨S4x8x4, .i32⟩
  | .hbm, ⟨21, _⟩ => ⟨S4x8x4x1, .i32⟩
  | .hbm, ⟨22, _⟩ => ⟨S64x4x8x4, .f32⟩
  | .hbm, ⟨23, _⟩ => ⟨S_, .i32⟩
  | .hbm, ⟨24, _⟩ => ⟨S4x8x4, .i32⟩
  | .hbm, ⟨25, _⟩ => ⟨S4x8x4, .i1⟩
  | .hbm, ⟨26, _⟩ => ⟨S_, .i32⟩
  | .hbm, ⟨27, _⟩ => ⟨S4x8x4, .i32⟩
  | .hbm, ⟨28, _⟩ => ⟨S4x8x4, .i32⟩
  | .hbm, ⟨29, _⟩ => ⟨S4x8x4, .i32⟩
  | .hbm, ⟨30, _⟩ => ⟨S4x8x4x1, .i32⟩
  | .hbm, ⟨31, _⟩ => ⟨S64x4x8x4, .f32⟩
  | .hbm, ⟨32, _⟩ => ⟨S256x32, .f32⟩
  | .hbm, ⟨33, _⟩ => ⟨S256x32, .f32⟩
  | .hbm, ⟨34, _⟩ => ⟨S256x32, .f32⟩
  | .hbm, ⟨35, _⟩ => ⟨S256x4096, .f32⟩
  | .hbm, ⟨36, _⟩ => ⟨S256x4096, .f32⟩
  | .hbm, ⟨37, _⟩ => ⟨S64x4x4096, .f32⟩
  | .local _ .vmem, ⟨0, _⟩ => ⟨S64x4096, .f32⟩
  | .local _ .vmem, ⟨1, _⟩ => ⟨S64x4096, .f32⟩
  | .local _ .vmem, ⟨2, _⟩ => ⟨S64x32, .f32⟩
  | .local _ .vmem, ⟨3, _⟩ => ⟨S64x32, .f32⟩
  | .local _ .vmem, ⟨4, _⟩ => ⟨S64x32, .f32⟩
  | .local _ .vmem, ⟨5, _⟩ => ⟨S64x32, .f32⟩
  | .local _ .vmem, ⟨6, _⟩ => ⟨S64x32, .f32⟩
  | .local _ .vmem, ⟨7, _⟩ => ⟨S64x32, .f32⟩
  | .local _ .vmem, ⟨8, _⟩ => ⟨S64x4096, .f32⟩
  | .local _ .vmem, ⟨9, _⟩ => ⟨S64x4096, .f32⟩
  | _, _ => ⟨S64x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S4x8x4 : S_.BroadcastsInDim S4x8x4 (![] : Fin 0 → Fin S4x8x4.rank)
  bcast_S4x8x4_S4x8x4x1_0_1_2 : S4x8x4.BroadcastsInDim S4x8x4x1 (![0, 1, 2] : Fin 3 → Fin S4x8x4x1.rank)
  shapeCasts_S64x4x8x4_S256x32 : S64x4x8x4.ShapeCasts S256x32
  shapeCasts_S64x4x4096_S256x4096 : S64x4x4096.ShapeCasts S256x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S64x32_S64x1_0_0 : ∀ a, (![0, 0] : Fin 2 → Nat) a + S64x1.size a ≤ S64x32.size a
  h_S64x1 : 0 < S64x1.numel
  shapeCasts_S64x1_S64x1 : S64x1.ShapeCasts S64x1
  broadcasts_S64x1_S64x4096 : S64x1.Broadcasts S64x4096
  inb_S64x32_S64x1_0_1 : ∀ a, (![0, 1] : Fin 2 → Nat) a + S64x1.size a ≤ S64x32.size a
  inb_S64x32_S64x1_0_2 : ∀ a, (![0, 2] : Fin 2 → Nat) a + S64x1.size a ≤ S64x32.size a
  inb_S64x32_S64x1_0_3 : ∀ a, (![0, 3] : Fin 2 → Nat) a + S64x1.size a ≤ S64x32.size a
  inb_S64x32_S64x1_0_4 : ∀ a, (![0, 4] : Fin 2 → Nat) a + S64x1.size a ≤ S64x32.size a
  inb_S64x32_S64x1_0_5 : ∀ a, (![0, 5] : Fin 2 → Nat) a + S64x1.size a ≤ S64x32.size a
  inb_S64x32_S64x1_0_6 : ∀ a, (![0, 6] : Fin 2 → Nat) a + S64x1.size a ≤ S64x32.size a
  inb_S64x32_S64x1_0_7 : ∀ a, (![0, 7] : Fin 2 → Nat) a + S64x1.size a ≤ S64x32.size a
  inb_S64x32_S64x1_0_8 : ∀ a, (![0, 8] : Fin 2 → Nat) a + S64x1.size a ≤ S64x32.size a
  inb_S64x32_S64x1_0_9 : ∀ a, (![0, 9] : Fin 2 → Nat) a + S64x1.size a ≤ S64x32.size a
  inb_S64x32_S64x1_0_10 : ∀ a, (![0, 10] : Fin 2 → Nat) a + S64x1.size a ≤ S64x32.size a
  inb_S64x32_S64x1_0_11 : ∀ a, (![0, 11] : Fin 2 → Nat) a + S64x1.size a ≤ S64x32.size a
  inb_S64x32_S64x1_0_12 : ∀ a, (![0, 12] : Fin 2 → Nat) a + S64x1.size a ≤ S64x32.size a
  inb_S64x32_S64x1_0_13 : ∀ a, (![0, 13] : Fin 2 → Nat) a + S64x1.size a ≤ S64x32.size a
  inb_S64x32_S64x1_0_14 : ∀ a, (![0, 14] : Fin 2 → Nat) a + S64x1.size a ≤ S64x32.size a
  inb_S64x32_S64x1_0_15 : ∀ a, (![0, 15] : Fin 2 → Nat) a + S64x1.size a ≤ S64x32.size a
  inb_S64x32_S64x1_0_16 : ∀ a, (![0, 16] : Fin 2 → Nat) a + S64x1.size a ≤ S64x32.size a
  inb_S64x32_S64x1_0_17 : ∀ a, (![0, 17] : Fin 2 → Nat) a + S64x1.size a ≤ S64x32.size a
  inb_S64x32_S64x1_0_18 : ∀ a, (![0, 18] : Fin 2 → Nat) a + S64x1.size a ≤ S64x32.size a
  inb_S64x32_S64x1_0_19 : ∀ a, (![0, 19] : Fin 2 → Nat) a + S64x1.size a ≤ S64x32.size a
  inb_S64x32_S64x1_0_20 : ∀ a, (![0, 20] : Fin 2 → Nat) a + S64x1.size a ≤ S64x32.size a
  inb_S64x32_S64x1_0_21 : ∀ a, (![0, 21] : Fin 2 → Nat) a + S64x1.size a ≤ S64x32.size a
  inb_S64x32_S64x1_0_22 : ∀ a, (![0, 22] : Fin 2 → Nat) a + S64x1.size a ≤ S64x32.size a
  inb_S64x32_S64x1_0_23 : ∀ a, (![0, 23] : Fin 2 → Nat) a + S64x1.size a ≤ S64x32.size a
  inb_S64x32_S64x1_0_24 : ∀ a, (![0, 24] : Fin 2 → Nat) a + S64x1.size a ≤ S64x32.size a
  inb_S64x32_S64x1_0_25 : ∀ a, (![0, 25] : Fin 2 → Nat) a + S64x1.size a ≤ S64x32.size a
  inb_S64x32_S64x1_0_26 : ∀ a, (![0, 26] : Fin 2 → Nat) a + S64x1.size a ≤ S64x32.size a
  inb_S64x32_S64x1_0_27 : ∀ a, (![0, 27] : Fin 2 → Nat) a + S64x1.size a ≤ S64x32.size a
  inb_S64x32_S64x1_0_28 : ∀ a, (![0, 28] : Fin 2 → Nat) a + S64x1.size a ≤ S64x32.size a
  inb_S64x32_S64x1_0_29 : ∀ a, (![0, 29] : Fin 2 → Nat) a + S64x1.size a ≤ S64x32.size a
  inb_S64x32_S64x1_0_30 : ∀ a, (![0, 30] : Fin 2 → Nat) a + S64x1.size a ≤ S64x32.size a
  inb_S64x32_S64x1_0_31 : ∀ a, (![0, 31] : Fin 2 → Nat) a + S64x1.size a ≤ S64x32.size a
  shapeCasts_S256x4096_S64x4x4096 : S256x4096.ShapeCasts S64x4x4096
  gather_S64x384_S4x8x4x1_S64x4x8x4_0_1_n_n_1_3_641_wf : GatherDims.WF S64x384 S4x8x4x1 S64x4x8x4 [0] [1] [] [1] [] 3 ![64, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S256x4096.size a
  hwx0_0 : ∀ i : grid0.Coords, EltTy.bits .f32 = 32 ∨ (Rect.block (s := S256x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S256x32.size a
  hwx0_1 : ∀ i : grid0.Coords, EltTy.bits .f32 = 32 ∨ (Rect.block (s := S256x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S256x32.size a
  hwx0_2 : ∀ i : grid0.Coords, EltTy.bits .f32 = 32 ∨ (Rect.block (s := S256x32) S64x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S256x32.size a
  hwx0_3 : ∀ i : grid0.Coords, EltTy.bits .f32 = 32 ∨ (Rect.block (s := S256x32) S64x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S256x4096.size a
  hwx0_4 : ∀ i : grid0.Coords, EltTy.bits .f32 = 32 ∨ (Rect.block (s := S256x4096) S64x4096.size (cc0_transform_4 i) (hinb0_4 i)).WholeWords (EltTy.packing .f32)

variable [Facts₀]

def gather_S64x384_S4x8x4x1_S64x4x8x4_0_1_n_n_1_3_641 : GatherDims S64x384 S4x8x4x1 S64x4x8x4 where
  offsetDims := [0]
  collapsedSliceDims := [1]
  operandBatchingDims := []
  startIndicesBatchingDims := []
  startIndexMap := [1]
  indexVectorDim := 3
  sliceSizes := ![64, 1]
  wf := gather_S64x384_S4x8x4x1_S64x4x8x4_0_1_n_n_1_3_641_wf

abbrev win0_0 : Pipeline.Window sig grid0 :=
  Pipeline.Window.ofSpec (Memref.whole main_v24) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S64x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S64x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x4x4096 : Shape := ⟨3, ![64, 4, 4096]⟩
abbrev S64x384 : Shape := ⟨2, ![64, 384]⟩
abbrev S4x8x4 : Shape := ⟨3, ![4, 8, 4]⟩
abbrev S_ : Shape := ⟨0, ![]⟩
abbrev S4x8x4x1 : Shape := ⟨4, ![4, 8, 4, 1]⟩
abbrev S64x4x8x4 : Shape := ⟨4, ![64, 4, 8, 4]⟩
abbrev S64x4x1x1x4096 : Shape := ⟨5, ![64, 4, 1, 1, 4096]⟩
abbrev S64x4x8x4x1 : Shape := ⟨5, ![64, 4, 8, 4, 1]⟩
abbrev S64x4x8x4x4096 : Shape := ⟨5, ![64, 4, 8, 4, 4096]⟩

abbrev nBuf : Space → Nat
  | .hbm => 54
  | .vmem => 0
  | .smem => 0
  | _ => 0

abbrev bufTy : (tb : Table) → Fin (tcTables nBuf tb) → BufTy
  | .hbm, ⟨0, _⟩ => ⟨S64x4x4096, .f32⟩
  | .hbm, ⟨1, _⟩ => ⟨S64x384, .f32⟩
  | .hbm, ⟨2, _⟩ => ⟨S4x8x4, .i32⟩
  | .hbm, ⟨3, _⟩ => ⟨S4x8x4, .i32⟩
  | .hbm, ⟨4, _⟩ => ⟨S4x8x4, .i32⟩
  | .hbm, ⟨5, _⟩ => ⟨S_, .i32⟩
  | .hbm, ⟨6, _⟩ => ⟨S4x8x4, .i32⟩
  | .hbm, ⟨7, _⟩ => ⟨S4x8x4, .i1⟩
  | .hbm, ⟨8, _⟩ => ⟨S_, .i32⟩
  | .hbm, ⟨9, _⟩ => ⟨S4x8x4, .i32⟩
  | .hbm, ⟨10, _⟩ => ⟨S4x8x4, .i32⟩
  | .hbm, ⟨11, _⟩ => ⟨S4x8x4, .i32⟩
  | .hbm, ⟨12, _⟩ => ⟨S4x8x4x1, .i32⟩
  | .hbm, ⟨13, _⟩ => ⟨S64x4x8x4, .f32⟩
  | .hbm, ⟨14, _⟩ => ⟨S_, .i32⟩
  | .hbm, ⟨15, _⟩ => ⟨S4x8x4, .i32⟩
  | .hbm, ⟨16, _⟩ => ⟨S4x8x4, .i1⟩
  | .hbm, ⟨17, _⟩ => ⟨S_, .i32⟩
  | .hbm, ⟨18, _⟩ => ⟨S4x8x4, .i32⟩
  | .hbm, ⟨19, _⟩ => ⟨S4x8x4, .i32⟩
  | .hbm, ⟨20, _⟩ => ⟨S4x8x4, .i32⟩
  | .hbm, ⟨21, _⟩ => ⟨S4x8x4x1, .i32⟩
  | .hbm, ⟨22, _⟩ => ⟨S64x4x8x4, .f32⟩
  | .hbm, ⟨23, _⟩ => ⟨S_, .i32⟩
  | .hbm, ⟨24, _⟩ => ⟨S4x8x4, .i32⟩
  | .hbm, ⟨25, _⟩ => ⟨S4x8x4, .i1⟩
  | .hbm, ⟨26, _⟩ => ⟨S_, .i32⟩
  | .hbm, ⟨27, _⟩ => ⟨S4x8x4, .i32⟩
  | .hbm, ⟨28, _⟩ => ⟨S4x8x4, .i32⟩
  | .hbm, ⟨29, _⟩ => ⟨S4x8x4, .i32⟩
  | .hbm, ⟨30, _⟩ => ⟨S4x8x4x1, .i32⟩
  | .hbm, ⟨31, _⟩ => ⟨S64x4x8x4, .f32⟩
  | .hbm, ⟨32, _⟩ => ⟨S64x4x1x1x4096, .f32⟩
  | .hbm, ⟨33, _⟩ => ⟨S64x4x8x4x1, .f32⟩
  | .hbm, ⟨34, _⟩ => ⟨S64x4x8x4x4096, .f32⟩
  | .hbm, ⟨35, _⟩ => ⟨S64x4x8x4x4096, .f32⟩
  | .hbm, ⟨36, _⟩ => ⟨S64x4x8x4x4096, .f32⟩
  | .hbm, ⟨37, _⟩ => ⟨S64x4x8x4, .f32⟩
  | .hbm, ⟨38, _⟩ => ⟨S_, .f32⟩
  | .hbm, ⟨39, _⟩ => ⟨S64x4x8x4, .f32⟩
  | .hbm, ⟨40, _⟩ => ⟨S64x4x8x4, .f32⟩
  | .hbm, ⟨41, _⟩ => ⟨S64x4x8x4x1, .f32⟩
  | .hbm, ⟨42, _⟩ => ⟨S_, .f32⟩
  | .hbm, ⟨43, _⟩ => ⟨S64x4x8x4x4096, .f32⟩
  | .hbm, ⟨44, _⟩ => ⟨S64x4x8x4x4096, .f32⟩
  | .hbm, ⟨45, _⟩ => ⟨S64x4x8x4x4096, .f32⟩
  | .hbm, ⟨46, _⟩ => ⟨S64x4x8x4x1, .f32⟩
  | .hbm, ⟨47, _⟩ => ⟨S64x4x8x4x4096, .f32⟩
  | .hbm, ⟨48, _⟩ => ⟨S64x4x8x4x4096, .f32⟩
  | .hbm, ⟨49, _⟩ => ⟨S64x4x8x4x4096, .f32⟩
  | .hbm, ⟨50, _⟩ => ⟨S64x4x8x4x4096, .f32⟩
  | .hbm, ⟨51, _⟩ => ⟨S64x4x8x4x4096, .f32⟩
  | .hbm, ⟨52, _⟩ => ⟨S_, .f32⟩
  | .hbm, ⟨53, _⟩ => ⟨S64x4x4096, .f32⟩
  | _, _ => ⟨S64x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S_S4x8x4 : S_.BroadcastsInDim S4x8x4 (![] : Fin 0 → Fin S4x8x4.rank)
  bcast_S4x8x4_S4x8x4x1_0_1_2 : S4x8x4.BroadcastsInDim S4x8x4x1 (![0, 1, 2] : Fin 3 → Fin S4x8x4x1.rank)
  bcast_S64x4x4096_S64x4x1x1x4096_0_1_4 : S64x4x4096.BroadcastsInDim S64x4x1x1x4096 (![0, 1, 4] : Fin 3 → Fin S64x4x1x1x4096.rank)
  bcast_S64x4x8x4_S64x4x8x4x1_0_1_2_3 : S64x4x8x4.BroadcastsInDim S64x4x8x4x1 (![0, 1, 2, 3] : Fin 4 → Fin S64x4x8x4x1.rank)
  bcast_S64x4x1x1x4096_S64x4x8x4x4096_0_1_2_3_4 : S64x4x1x1x4096.BroadcastsInDim S64x4x8x4x4096 (![0, 1, 2, 3, 4] : Fin 5 → Fin S64x4x8x4x4096.rank)
  bcast_S64x4x8x4x1_S64x4x8x4x4096_0_1_2_3_4 : S64x4x8x4x1.BroadcastsInDim S64x4x8x4x4096 (![0, 1, 2, 3, 4] : Fin 5 → Fin S64x4x8x4x4096.rank)
  bcast_S_S64x4x8x4 : S_.BroadcastsInDim S64x4x8x4 (![] : Fin 0 → Fin S64x4x8x4.rank)
  bcast_S_S64x4x8x4x4096 : S_.BroadcastsInDim S64x4x8x4x4096 (![] : Fin 0 → Fin S64x4x8x4x4096.rank)
  reducesTo_S64x4x8x4x4096_S64x4x4096_d2_3 : S64x4x8x4x4096.ReducesTo [2, 3] S64x4x4096
  h_S_ : 0 < S_.numel
  gather_S64x384_S4x8x4x1_S64x4x8x4_0_1_n_n_1_3_641_wf : GatherDims.WF S64x384 S4x8x4x1 S64x4x8x4 [0] [1] [] [1] [] 3 ![64, 1]

variable [Facts₀]

def gather_S64x384_S4x8x4x1_S64x4x8x4_0_1_n_n_1_3_641 : GatherDims S64x384 S4x8x4x1 S64x4x8x4 where
  offsetDims := [0]
  collapsedSliceDims := [1]
  operandBatchingDims := []
  startIndicesBatchingDims := []
  startIndexMap := [1]
  indexVectorDim := 3
  sliceSizes := ![64, 1]
  wf := gather_S64x384_S4x8x4x1_S64x4x8x4_0_1_n_n_1_3_641_wf

class Facts : Prop extends Facts₀ where

variable [Facts]
-- ==== Proof.Mixture.lean ====
/-
  A superposition of Gaussian lines.  For a spectrum n, a channel c and a wavelength bin d the result is the sum, over the
  8 lines l of the channel and the 4 components q of a line, of

      amp · exp( ((−½ · (x − mu)) · (x − mu)) · (1 / (sigma · sigma)) ),

  where x is the spectrum's sample at (n, c, d) and amp, mu, sigma are the component's three parameters at (n, c, l, q).
  Both programs compute every summand with these operations in this order; they differ only in how the 32 summands
  are added up: one after the other along the flattened index k = 4·l + q, from a zero accumulator, or as one reduction over the
  two axes l and q.  On the extended reals addition is commutative and associative, so the two sums agree with no
  hypothesis on the inputs.  This file states the summand, the result as one function of the four arrays, and the
  re-indexing of a sum over k as the double sum over (l, q).
-/
import Idealize.ShloMosaic.PureOps.Ideal
import Idealize.ShloMosaic.PureOps.Ideal.Laws
import Idealize.ShloMosaic.Lib.ValueIdx

noncomputable section

open scoped BigOperators

namespace Cert.GaussMix

open Idealize.ShloMosaic Idealize.ShloMosaic.ValueIdx

/-- One Gaussian component at a sample: amplitude times the exponential of minus one half of the squared distance
    to the centre, divided by the squared width.  The two literals are the f32 words of −0.5 and of 1. -/
def comp (x a mu s : EReal) : EReal :=
  a * Ideal.exp (((Ideal.ofBits .f32 0xBF000000#32 * (x - mu)) * (x - mu))
        * Ideal.div (Ideal.ofBits .f32 0x3F800000#32) (s * s))

/-- The superposition: at (n, c, d) the sum over the lines and their components of the component at the sample. -/
def mix (x : (⟨3, ![64, 4, 4096]⟩ : Shape).Idx → EReal) (A M S : (⟨4, ![64, 4, 8, 4]⟩ : Shape).Idx → EReal) :
    (⟨3, ![64, 4, 4096]⟩ : Shape).Idx → EReal :=
  fun i => ∑ l : Fin 8, ∑ q : Fin 4,
    comp (x i) (A (ix4 (n0 := 64) (n1 := 4) (i 0) (i 1) l q)) (M (ix4 (n0 := 64) (n1 := 4) (i 0) (i 1) l q))
      (S (ix4 (n0 := 64) (n1 := 4) (i 0) (i 1) l q))

/-- A pair (line, component) is the flattened position 4·l + q among the 32 parameters of a row, and back by quotient
    and remainder. -/
def lineEquiv : Fin 8 × Fin 4 ≃ Fin 32 where
  toFun p := ⟨4 * p.1.val + p.2.val, by have := p.1.isLt; have := p.2.isLt; omega⟩
  invFun k := (⟨k.val / 4, by have := k.isLt; omega⟩, ⟨k.val % 4, by omega⟩)
  left_inv p := by
    have h1 := p.1.isLt
    have h2 := p.2.isLt
    refine Prod.ext (Fin.ext ?_) (Fin.ext ?_)
    · show (4 * p.1.val + p.2.val) / 4 = p.1.val
      omega
    · show (4 * p.1.val + p.2.val) % 4 = p.2.val
      omega
  right_inv k := Fin.ext (by
    show 4 * (k.val / 4) + k.val % 4 = k.val
    omega)

/-- A sum over the 32 flattened positions is the double sum over lines and components. -/
theorem sum_lines (f : Fin 32 → EReal) :
    ∑ k : Fin 32, f k
      = ∑ l : Fin 8, ∑ q : Fin 4, f ⟨4 * l.val + q.val, by have := l.isLt; have := q.isLt; omega⟩ := by
  rw [← Equiv.sum_comp lineEquiv f, Fintype.sum_prod_type]
  rfl

end Cert.GaussMix

end
-- ==== Proof.Block.lean ====
/-
  One [64, 4096] block of the result, as the kernel's body computes it from a [64, 4096] block of samples and three
  [64, 32] blocks of parameters (amplitudes, centres, widths), read at row p and bin q.
  The body starts from zero and, for k = 0, …, 31 in turn, adds the component whose parameters are column k of the three
  parameter blocks at row p, evaluated at the sample (p, q): every operation of it acts element by element, a column is
  read through the rectangle of offset (0, k) and broadcast along the bins.  So the entry is the sum over k of the
  components — the 32 summands taken in the body's order.
-/
import proofs.«117157_j28733331210408_1_alg».proof.Proof.Gen.KernelIdeal.Frame
import proofs.«117157_j28733331210408_1_alg».proof.Proof.Mixture
import Idealize.ShloMosaic.Lib.Pipeline.Value
import Idealize.ShloMosaic.Lib.ValueIdx

noncomputable section

open scoped BigOperators

namespace Cert.KernelIdeal.Mix

open Idealize.ShloMosaic Idealize.ShloMosaic.TcCoe Idealize.ShloMosaic.ValueIdx
open Cert.KernelIdeal Cert.KernelIdeal.Gen Cert.GaussMix

/-- The offsets (0, 0) of a whole-block access. -/
theorem hz : (![0, 0] : Fin 2 → Nat) = fun _ => 0 := funext fun a => by fin_cases a <;> rfl

/-- Column k of a [64, 32] block, as the rectangle a load reads it through: its row p is the block's index (p, k). -/
theorem idx_col (k : Nat) (inb : ∀ a, (![0, k] : Fin 2 → Nat) a + S64x1.size a ≤ S64x32.size a)
    (p : Fin 64) (z : Fin 1) :
    (Rect.unit (s := S64x32) ![0, k] S64x1.size inb).toLoadRect.idx (ix2 p z)
      = ix2 p ⟨k, by have := inb 1; simpa using this⟩ := by
  funext a
  apply Fin.ext
  match a with
  | ⟨0, _⟩ => show 0 + 1 * p.val = p.val; omega
  | ⟨1, _⟩ => show k + 1 * z.val = k; have := z.isLt; omega

/-- A column [64, 1] broadcast along the 4096 bins reads, at (p, q), the column at row p. -/
theorem bcast_col {α : Type} (v : S64x1.Idx → α) (h : S64x1.Broadcasts S64x4096) (p : Fin 64) (q : Fin 4096) :
    broadcastTo S64x4096 v h (ix2 p q) = v (ix2 p (0 : Fin 1)) :=
  broadcastTo_apply v h _ _ fun a => by
    match a with
    | ⟨0, _⟩ => rfl
    | ⟨1, _⟩ => rfl

/-- The exponential of a vector, at an index, is the exponential of the element. -/
theorem exp_apply {s : Shape} {φ : FTy} (a : FVec Ideal s φ) (i : s.Idx) : exp a i = Ideal.exp (a i) := rfl

/-- THE BLOCK AT (p, q): the sum over the 32 columns k of the component with parameters (p, k) at the sample (p, q).
    The body's stored value is unfolded into its elementwise operations, each read at (p, q); what is left is
    0 + c₀ + c₁ + … + c₃₁ associated to the left, which is the sum over `Fin 32` peeled from its last term. -/
theorem block_apply (x0 : Vec Ideal S64x4096 .f32) (x1 x2 x3 : Vec Ideal S64x32 .f32) (p : Fin 64) (q : Fin 4096) :
    out0_4 x0 x1 x2 x3 (ix2 p q)
      = ∑ k : Fin 32, comp (x0 (ix2 p q)) (x1 (ix2 p k)) (x2 (ix2 p k)) (x3 (ix2 p k)) := by
  unfold out0_4
  rw [View.canon_unit_zero hz]
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51]
  simp only [shapeCast_self, View.ld_unit_zero (S := S64x4096) hz]
  simp only [addf_apply, mulf_apply, subf_apply, divf_apply, exp_apply, broadcast_apply, bcast_col]
  simp only [View.ld, idx_col]
  simp only [show (FloatOps.ofBits FTy.f32 0x00000000#32 : Ideal FTy.f32) = 0 from Ideal.ofBits_zero_f32]
  simp only [Fin.sum_univ_castSucc, Fin.sum_univ_zero, comp]
  rfl

end Cert.KernelIdeal.Mix

end
-- ==== Proof.Rows.lean ====
/-
  The superposition in the kernel's two-dimensional layout.  The kernel flattens (spectrum, channel) into a row
  r = 4·n + c of 256 rows and (line, component) into a column k = 4·l + q of 32 columns, and computes, for every row
  r and bin d, the sum over the 32 columns of the component with the parameters at (r, k) at the sample (r, d): the
  array `rows`.  Reading the flattened arrays back at their original indices — a reshape keeps the row-major position —
  and re-indexing the 32 columns as pairs (l, q) turns `rows` of the flattened arrays, reshaped to [64, 4, 4096], into
  `mix` of the original arrays.
-/
import proofs.«117157_j28733331210408_1_alg».proof.Proof.Mixture
import Idealize.ShloMosaic.Lib.Pipeline.Value
import Idealize.ShloMosaic.Lib.ValueIdx

noncomputable section

open scoped BigOperators

namespace Cert.GaussMix

open Idealize.ShloMosaic Idealize.ShloMosaic.ValueIdx

/-- Samples as [spectrum, channel, bin]; parameters as [spectrum, channel, line, component]; and their flattened forms. -/
abbrev Sncd : Shape := ⟨3, ![64, 4, 4096]⟩
abbrev Snclq : Shape := ⟨4, ![64, 4, 8, 4]⟩
abbrev Srd : Shape := ⟨2, ![256, 4096]⟩
abbrev Srk : Shape := ⟨2, ![256, 32]⟩

/-- Row by row: at (r, d) the sum over the 32 columns k of the component with parameters (r, k) at the sample (r, d). -/
def rows (X : Srd.Idx → EReal) (A M S : Srk.Idx → EReal) : Srd.Idx → EReal :=
  fun i => ∑ k : Fin 32, comp (X i) (A (ix2 (n0 := 256) (i 0) k)) (M (ix2 (n0 := 256) (i 0) k)) (S (ix2 (n0 := 256) (i 0) k))

/-- A flattened sample array at (4·n + c, d) is the original at (n, c, d). -/
theorem flat_sample (x : Sncd.Idx → EReal) (h : Sncd.ShapeCasts Srd) (n : Fin 64) (c : Fin 4) (d : Fin 4096) (r : Fin 256)
    (hr : r.val = 4 * n.val + c.val) : shapeCast Srd x h (ix2 r d) = x (ix3 n c d) :=
  shapeCast_apply x h (ix2 r d) (ix3 n c d) (by
    rw [Shape.rowMajor_val_two, Shape.rowMajor_val_three]
    show (n.val * 4 + c.val) * 4096 + d.val = r.val * 4096 + d.val
    rw [hr]; omega)

/-- A flattened parameter array at (4·n + c, 4·l + q) is the original at (n, c, l, q). -/
theorem flat_param (A : Snclq.Idx → EReal) (h : Snclq.ShapeCasts Srk) (n : Fin 64) (c : Fin 4) (l : Fin 8) (q : Fin 4)
    (r : Fin 256) (k : Fin 32) (hr : r.val = 4 * n.val + c.val) (hk : k.val = 4 * l.val + q.val) :
    shapeCast Srk A h (ix2 r k) = A (ix4 n c l q) :=
  shapeCast_apply A h (ix2 r k) (ix4 n c l q) (by
    rw [Shape.rowMajor_val_two, Shape.rowMajor_val_four]
    show ((n.val * 4 + c.val) * 8 + l.val) * 4 + q.val = r.val * 32 + k.val
    rw [hr, hk]; omega)

/-- THE LAYOUT CHANGE: `rows` of the flattened arrays, read back as [64, 4, 4096], is `mix` of the original arrays. -/
theorem rows_reshape (x : Sncd.Idx → EReal) (A M S : Snclq.Idx → EReal) (hx : Sncd.ShapeCasts Srd)
    (hp : Snclq.ShapeCasts Srk) (hy : Srd.ShapeCasts Sncd) :
    shapeCast Sncd (rows (shapeCast Srd x hx) (shapeCast Srk A hp) (shapeCast Srk M hp) (shapeCast Srk S hp)) hy
      = mix x A M S := by
  funext i
  obtain ⟨n, c, d, rfl⟩ : ∃ (n : Fin 64) (c : Fin 4) (d : Fin 4096), i = ix3 n c d := ⟨i 0, i 1, i 2, eq_ix3 i⟩
  obtain ⟨r, hr⟩ : ∃ r : Fin 256, r.val = 4 * n.val + c.val :=
    ⟨⟨4 * n.val + c.val, by have := n.isLt; have := c.isLt; omega⟩, rfl⟩
  refine (shapeCast_apply _ hy (ix3 n c d) (ix2 r d) (by
    rw [Shape.rowMajor_val_two, Shape.rowMajor_val_three]
    show r.val * 4096 + d.val = (n.val * 4 + c.val) * 4096 + d.val
    rw [hr]; omega)).trans ?_
  show ∑ k : Fin 32, comp (shapeCast Srd x hx (ix2 r d)) (shapeCast Srk A hp (ix2 r k)) (shapeCast Srk M hp (ix2 r k))
      (shapeCast Srk S hp (ix2 r k)) = ∑ l : Fin 8, ∑ q : Fin 4, comp (x (ix3 n c d)) (A (ix4 n c l q)) (M (ix4 n c l q)) (S (ix4 n c l q))
  rw [sum_lines]
  refine Finset.sum_congr rfl fun l _ => Finset.sum_congr rfl fun q _ => ?_
  rw [flat_sample x hx n c d r hr, flat_param A hp n c l q r _ hr rfl, flat_param M hp n c l q r _ hr rfl,
    flat_param S hp n c l q r _ hr rfl]

end Cert.GaussMix

end
-- ==== Proof.Array.lean ====
/-
  From the kernel's blocks to its result array.
  Before the region the host gathers the three parameter arrays out of the table of network outputs and flattens them
  and the samples to two dimensions; the region's grid has four points, and at point t every window's block is rows
  64·t … 64·t + 63 of its array.  So the block written back at point t is block t of ONE function of the flattened arrays,
  `rows`: its entry (p, q) is the sum over the 32 columns of the component with the parameters at row 64·t + p.  The four
  blocks tile the [256, 4096] result, which therefore ends at `rows`; the reshape after the region reads it back as
  [64, 4, 4096], and that is `mix` of the samples and the three gathered arrays.
-/
import proofs.«117157_j28733331210408_1_alg».proof.Proof.Block
import proofs.«117157_j28733331210408_1_alg».proof.Proof.Rows
import Idealize.ShloMosaic.Lib.StableHlo.Run

noncomputable section

open scoped BigOperators

namespace Cert.KernelIdeal.Mix

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.GaussMix

variable (m : (ℓ : Loc nD τ sig) → Buf (Elt Ideal) ℓ) (ρ : Dev nD → PrngReg)

/-! ## The arrays the region finds -/

/-- A parameter array: the columns of the table of network outputs at the given indices, a negative index counted
    from the end — the host's gather, kept as it is printed. -/
abbrev params (x1 : (⟨S64x384, .f32⟩ : BufTy).Contents (Elt Ideal)) (x2 : (⟨S4x8x4, .i32⟩ : BufTy).Contents (Elt Ideal)) :
    (⟨S64x4x8x4, .f32⟩ : BufTy).Contents (Elt Ideal) :=
  Host.gather gather_S64x384_S4x8x4x1_S64x4x8x4_0_1_n_n_1_3_641 x1
    (broadcastInDim S4x8x4x1 ![0, 1, 2] bcast_S4x8x4_S4x8x4x1_0_1_2
      (select (cmpi .slt x2 (broadcastInDim S4x8x4 ![] bcast_S_S4x8x4 (constantI S_ 32 0#32)))
        (addi x2 (broadcastInDim S4x8x4 ![] bcast_S_S4x8x4 (constantI S_ 32 384#32))) x2))

set_option maxHeartbeats 2000000 in
/-- The samples as the region finds them: flattened to [256, 4096]. -/
theorem V_x (c : Dev nD) : (V m c main_v24 : S256x4096.Idx → EReal)
    = shapeCast S256x4096 (m ((c : Thread nD τ).loc main_arg0)) shapeCasts_S64x4x4096_S256x4096 := by
  show StableHlo.after hostOps0 (fun b => m (c, b)) (Proc.devRef .tc main_v24) = _
  after_results
  rfl

set_option maxHeartbeats 2000000 in
/-- The amplitudes as the region finds them: gathered, flattened to [256, 32]. -/
theorem V_amp (c : Dev nD) : (V m c main_v21 : S256x32.Idx → EReal)
    = shapeCast S256x32 (params (m ((c : Thread nD τ).loc main_arg1)) (m ((c : Thread nD τ).loc main_arg2)))
        shapeCasts_S64x4x8x4_S256x32 := by
  show StableHlo.after hostOps0 (fun b => m (c, b)) (Proc.devRef .tc main_v21) = _
  after_results
  rfl

set_option maxHeartbeats 2000000 in
/-- The centres likewise. -/
theorem V_mu (c : Dev nD) : (V m c main_v22 : S256x32.Idx → EReal)
    = shapeCast S256x32 (params (m ((c : Thread nD τ).loc main_arg1)) (m ((c : Thread nD τ).loc main_arg3)))
        shapeCasts_S64x4x8x4_S256x32 := by
  show StableHlo.after hostOps0 (fun b => m (c, b)) (Proc.devRef .tc main_v22) = _
  after_results
  rfl

set_option maxHeartbeats 2000000 in
/-- The widths likewise. -/
theorem V_sigma (c : Dev nD) : (V m c main_v23 : S256x32.Idx → EReal)
    = shapeCast S256x32 (params (m ((c : Thread nD τ).loc main_arg1)) (m ((c : Thread nD τ).loc main_arg4)))
        shapeCasts_S64x4x8x4_S256x32 := by
  show StableHlo.after hostOps0 (fun b => m (c, b)) (Proc.devRef .tc main_v23) = _
  after_results
  rfl

/-! ## A window's block at a grid point -/

/-- Every window's block at point t is block row t, block column 0 of its array (decided over the four points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The samples' block at point t, at (p, q), is the flattened samples at row 64·t + p, bin q. -/
theorem iblk_x (c : Dev nD) (t : Fin cfg0.N) (p : Fin 64) (q : Fin 4096) (r : Fin 256) (hr : r.val = 64 * t.val + p.val) :
    (iblk m c 0 t : Vec Ideal S64x4096 .f32) (ix2 p q) = (V m c main_v24 : S256x4096.Idx → EReal) (ix2 r q) := by
  obtain ⟨e0, e1, -⟩ := idx_facts t
  unfold iblk
  rw [View.read_apply]
  show V m c main_v24 _ = V m c main_v24 _
  congr 1
  funext a
  apply Fin.ext
  match a with
  | ⟨0, _⟩ => show win0_0.index t 0 * 64 + 1 * p.val = r.val; rw [e0, hr]; omega
  | ⟨1, _⟩ => show win0_0.index t 1 * 4096 + 1 * q.val = q.val; rw [e1]; omega

/-- The amplitudes' block at point t, at (p, k), is the flattened amplitudes at row 64·t + p, column k. -/
theorem iblk_amp (c : Dev nD) (t : Fin cfg0.N) (p : Fin 64) (k : Fin 32) (r : Fin 256) (hr : r.val = 64 * t.val + p.val) :
    (iblk m c 1 t : Vec Ideal S64x32 .f32) (ix2 p k) = (V m c main_v21 : S256x32.Idx → EReal) (ix2 r k) := by
  obtain ⟨-, -, e0, e1, -⟩ := idx_facts t
  unfold iblk
  rw [View.read_apply]
  show V m c main_v21 _ = V m c main_v21 _
  congr 1
  funext a
  apply Fin.ext
  match a with
  | ⟨0, _⟩ => show win0_1.index t 0 * 64 + 1 * p.val = r.val; rw [e0, hr]; omega
  | ⟨1, _⟩ => show win0_1.index t 1 * 32 + 1 * k.val = k.val; rw [e1]; omega

/-- The centres' block likewise. -/
theorem iblk_mu (c : Dev nD) (t : Fin cfg0.N) (p : Fin 64) (k : Fin 32) (r : Fin 256) (hr : r.val = 64 * t.val + p.val) :
    (iblk m c 2 t : Vec Ideal S64x32 .f32) (ix2 p k) = (V m c main_v22 : S256x32.Idx → EReal) (ix2 r k) := by
  obtain ⟨-, -, -, -, e0, e1, -⟩ := idx_facts t
  unfold iblk
  rw [View.read_apply]
  show V m c main_v22 _ = V m c main_v22 _
  congr 1
  funext a
  apply Fin.ext
  match a with
  | ⟨0, _⟩ => show win0_2.index t 0 * 64 + 1 * p.val = r.val; rw [e0, hr]; omega
  | ⟨1, _⟩ => show win0_2.index t 1 * 32 + 1 * k.val = k.val; rw [e1]; omega

/-- The widths' block likewise. -/
theorem iblk_sigma (c : Dev nD) (t : Fin cfg0.N) (p : Fin 64) (k : Fin 32) (r : Fin 256) (hr : r.val = 64 * t.val + p.val) :
    (iblk m c 3 t : Vec Ideal S64x32 .f32) (ix2 p k) = (V m c main_v23 : S256x32.Idx → EReal) (ix2 r k) := by
  obtain ⟨-, -, -, -, -, -, e0, e1, -⟩ := idx_facts t
  unfold iblk
  rw [View.read_apply]
  show V m c main_v23 _ = V m c main_v23 _
  congr 1
  funext a
  apply Fin.ext
  match a with
  | ⟨0, _⟩ => show win0_3.index t 0 * 64 + 1 * p.val = r.val; rw [e0, hr]; omega
  | ⟨1, _⟩ => show win0_3.index t 1 * 32 + 1 * k.val = k.val; rw [e1]; omega

/-- Entry (p, q) of the result's block at point t sits at row 64·t + p, bin q of the result. -/
theorem emb_out (t : Fin cfg0.N) (p : Fin 64) (q : Fin 4096) (r : Fin 256) (hr : r.val = 64 * t.val + p.val) :
    ((cfg0.win 4).blk t).view.emb (ix2 p q) = (ix2 r q : S256x4096.Idx) := by
  obtain ⟨-, -, -, -, -, -, -, -, e0, e1⟩ := idx_facts t
  funext a
  apply Fin.ext
  match a with
  | ⟨0, _⟩ => show win0_4.index t 0 * 64 + 1 * p.val = r.val; rw [e0, hr]; omega
  | ⟨1, _⟩ => show win0_4.index t 1 * 4096 + 1 * q.val = q.val; rw [e1]; omega

/-! ## What the region leaves -/

/-- The result array in the kernel's layout: `rows` of the four arrays the region finds. -/
abbrev flat (c : Dev nD) : S256x4096.Idx → EReal :=
  rows (V m c main_v24) (V m c main_v21) (V m c main_v22) (V m c main_v23)

/-- WHAT POINT t WRITES BACK is block t of `flat`. -/
theorem flushed_eq (c : Dev nD) (t : Fin cfg0.N) :
    (dats m 0 c).flushed 4 t = ((cfg0.win 4).blk t).view.read (Elt Ideal) (flat m c) := by
  show (cfg0.win 4).cut (grid0.coords t) ((dats m 0 c).after 4 t) = _
  rw [after0_4]
  funext j
  obtain ⟨p, q, rfl⟩ : ∃ (p : Fin 64) (q : Fin 4096), j = ix2 p q := ⟨j 0, j 1, eq_ix2 j⟩
  have ht : t.val < 4 := lt_of_lt_of_eq t.isLt N_0
  obtain ⟨r, hr⟩ : ∃ r : Fin 256, r.val = 64 * t.val + p.val :=
    ⟨⟨64 * t.val + p.val, by have := p.isLt; omega⟩, rfl⟩
  rw [View.read_apply, emb_out t p q r hr]
  show out0_4 (iblk m c 0 t) (iblk m c 1 t) (iblk m c 2 t) (iblk m c 3 t) (ix2 p q)
    = ∑ k : Fin 32, comp (V m c main_v24 (ix2 r q)) (V m c main_v21 (ix2 r k)) (V m c main_v22 (ix2 r k)) (V m c main_v23 (ix2 r k))
  refine (block_apply (iblk m c 0 t) (iblk m c 1 t) (iblk m c 2 t) (iblk m c 3 t) p q).trans ?_
  refine Finset.sum_congr rfl fun k _ => ?_
  rw [iblk_x m c t p q r hr, iblk_amp m c t p k r hr, iblk_mu m c t p k r hr, iblk_sigma m c t p k r hr]

/-- An index of the result is in point t's block iff each coordinate is in the block's range on its axis. -/
theorem mem_blk (t : Fin cfg0.N) (i : S256x4096.Idx) :
    i ∈ ((cfg0.win 4).blk t).view.set ↔ ∀ a : Fin 2, win0_4.index t a * S64x4096.size a ≤ (i a).val
      ∧ (i a).val < win0_4.index t a * S64x4096.size a + S64x4096.size a := by
  show i ∈ ((View.whole main_v25).slice (win0_4.rect t)).set ↔ _
  rw [View.set_slice_whole, Rect.mem_set_unit]
  exact Iff.rfl

/-- The four blocks tile the result: row r lies in the block of point r / 64. -/
theorem cover (i : S256x4096.Idx) : ∃ t : Fin cfg0.N, (cfg0.win 4).flush t = true ∧ i ∈ ((cfg0.win 4).blk t).view.set := by
  have hi0 : (i 0).val < 256 := (i 0).isLt
  have hi1 : (i 1).val < 4096 := (i 1).isLt
  obtain ⟨t, ht⟩ : ∃ t : Fin cfg0.N, t.val = (i 0).val / 64 :=
    ⟨⟨(i 0).val / 64, by rw [show cfg0.N = 4 from N_0]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t 0 * 64 ≤ (i 0).val ∧ (i 0).val < win0_4.index t 0 * 64 + 64
    rw [e0, ht]; omega
  | ⟨1, _⟩ =>
    show win0_4.index t 1 * 4096 ≤ (i 1).val ∧ (i 1).val < win0_4.index t 1 * 4096 + 4096
    rw [e1]; omega

/-- THE RESULT ARRAY after the region is `flat`. -/
theorem final (c : Dev nD) : (dats m 0 c).arrAt 4 cfg0.N = flat m c :=
  (dats m 0 c).arrAt_eq_of_cover 4 (flat m c) (fun t _ => flushed_eq m c t) cover

/-! ## After the region -/

/-- The program's result: the region's array read back as [64, 4, 4096]. -/
theorem tail_eq (c : Dev nD) :
    Pipeline.afterTail₀ cfgs (dats m) 0 (V0 m) [hostOps1] c main_v26
      = shapeCast S64x4x4096 (flat m c) shapeCasts_S256x4096_S64x4x4096 := by
  unfold Pipeline.afterTail₀
  show StableHlo.after hostOps1 _ (Proc.devRef .tc main_v26) = _
  after_results
  have hw : Pipeline.withArrays (cfgs 0).spec c (V0 m c) (fun w => (dats m 0 c).arrAt w (cfgs 0).N) (Proc.tc.devRef main_v25)
      = flat m c := (Pipeline.withArrays_arr spec0 launch0.win.arr_inj c _ _ 4).trans (final m c)
  rw [hw]
  rfl

/-- THE KERNEL'S RESULT is `mix` of the samples and the three gathered parameter arrays. -/
theorem result_eq (c : Dev nD) :
    shapeCast S64x4x4096 (flat m c) shapeCasts_S256x4096_S64x4x4096
      = mix (m ((c : Thread nD τ).loc main_arg0))
          (params (m ((c : Thread nD τ).loc main_arg1)) (m ((c : Thread nD τ).loc main_arg2)))
          (params (m ((c : Thread nD τ).loc main_arg1)) (m ((c : Thread nD τ).loc main_arg3)))
          (params (m ((c : Thread nD τ).loc main_arg1)) (m ((c : Thread nD τ).loc main_arg4))) := by
  unfold flat
  rw [V_x, V_amp, V_mu, V_sigma]
  exact rows_reshape _ _ _ _ shapeCasts_S64x4x4096_S256x4096 shapeCasts_S64x4x8x4_S256x32 shapeCasts_S256x4096_S64x4x4096

/-! ## The run, read -/

/-- Every weakly fair execution ends with the result buffer at `mix` of the arguments and the arguments unchanged. -/
theorem run : θ_run defs (onTc (τ := τ) (main (F := Ideal))) ⟨m, fun _ => 0, ρ⟩ fun r => ∀ c : Dev nD,
      r.2.mem ((c.tc : Thread nD τ).loc main_v26)
        = mix (m ((c : Thread nD τ).loc main_arg0))
            (params (m ((c : Thread nD τ).loc main_arg1)) (m ((c : Thread nD τ).loc main_arg2)))
            (params (m ((c : Thread nD τ).loc main_arg1)) (m ((c : Thread nD τ).loc main_arg3)))
            (params (m ((c : Thread nD τ).loc main_arg1)) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v26 (Pipeline.mem_restRefs_of main_v26 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Mix

end
-- ==== Proof.ReduceLines.lean ====
/-
  A host sum over the two axes "line" and "component" of a [64, 4, 8, 4, 4096] array, read at one result index.
  The reduction adds, to its initial value, every source element whose index with the two summed coordinates removed is the
  result index (n, c, d); those source indices are exactly (n, c, l, q, d) for the 8 · 4 pairs (l, q), so the sum is the
  double sum over l and q.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.GaussMix

open Idealize.ShloMosaic Idealize.ShloMosaic.ValueIdx

/-- The sum over axes 2 and 3 at the result index (n, c, d): the initial value plus the double sum over the two
    removed coordinates. -/
theorem reduce_lines (h : (⟨5, ![64, 4, 8, 4, 4096]⟩ : Shape).ReducesTo [2, 3] ⟨3, ![64, 4, 4096]⟩)
    (y : (⟨5, ![64, 4, 8, 4, 4096]⟩ : Shape).Idx → EReal) (init : EReal) (n : Fin 64) (c : Fin 4) (d : Fin 4096) :
    Ideal.hostReduceAdd h y init (ix3 n c d) = init + ∑ l : Fin 8, ∑ q : Fin 4, y (ix5 n c l q d) := by
  -- the three kept coordinates of a source index are its coordinates 0, 1 and 4
  have e0 : ∀ i, ((h.drop i) 0 : Nat) = i 0 := fun i => h.drop_apply_val_of_eq i 0 0
  have e1 : ∀ i, ((h.drop i) 1 : Nat) = i 1 := fun i => h.drop_apply_val_of_eq i 1 1
  have e2 : ∀ i, ((h.drop i) 2 : Nat) = i 4 := fun i => h.drop_apply_val_of_eq i 2 4
  unfold Ideal.hostReduceAdd
  congr 1
  rw [← Fintype.sum_prod_type' (f := fun (l : Fin 8) (q : Fin 4) => y (ix5 n c l q d))]
  symm
  refine Finset.sum_nbij' (fun p : Fin 8 × Fin 4 => ix5 n c p.1 p.2 d)
    (fun i => ((i 2 : Fin 8), (i 3 : Fin 4))) ?_ ?_ ?_ ?_ ?_
  · -- (n, c, l, q, d) drops to (n, c, d)
    intro p _
    rw [Finset.mem_filter]
    refine ⟨Finset.mem_univ _, funext fun b => Fin.ext ?_⟩
    match b with
    | ⟨0, _⟩ => exact e0 _
    | ⟨1, _⟩ => exact e1 _
    | ⟨2, _⟩ => exact e2 _
  · intro i _
    exact Finset.mem_univ _
  · intro p _
    rfl
  · -- a source index that drops to (n, c, d) is (n, c, l, q, d) for its own l and q
    intro i hi
    rw [Finset.mem_filter] at hi
    have hd := hi.2
    have h0 : ((h.drop i) 0 : Nat) = n.val := congrArg (fun j : (⟨3, ![64, 4, 4096]⟩ : Shape).Idx => (j 0 : Nat)) hd
    have h1 : ((h.drop i) 1 : Nat) = c.val := congrArg (fun j : (⟨3, ![64, 4, 4096]⟩ : Shape).Idx => (j 1 : Nat)) hd
    have h2 : ((h.drop i) 2 : Nat) = d.val := congrArg (fun j : (⟨3, ![64, 4, 4096]⟩ : Shape).Idx => (j 2 : Nat)) hd
    funext a
    apply Fin.ext
    match a with
    | ⟨0, _⟩ => exact ((e0 i).symm.trans h0).symm
    | ⟨1, _⟩ => exact ((e1 i).symm.trans h1).symm
    | ⟨2, _⟩ => rfl
    | ⟨3, _⟩ => rfl
    | ⟨4, _⟩ => exact ((e2 i).symm.trans h2).symm
  · intro p _
    rfl

end Cert.GaussMix

end
-- ==== Proof.RefMix.lean ====
/-
  The reference's result is the superposition `mix` of the samples and of the three gathered parameter arrays.
  Its last operation sums, over the axes "line" and "component" of a [64, 4, 8, 4, 4096] array, the product of the
  amplitude with the exponential; every earlier operation acts element by element or re-lays an array (a sample is
  repeated along the lines and components, a parameter along the bins), so the summed array at (n, c, l, q, d) is the
  component with parameters (n, c, l, q) at the sample (n, c, d).  The three gathers stay as they are printed: the same
  three arrays reach the kernel.
-/
import proofs.«117157_j28733331210408_1_alg».proof.Proof.Gen.ReferenceIdeal.Read
import proofs.«117157_j28733331210408_1_alg».proof.Proof.Mixture
import proofs.«117157_j28733331210408_1_alg».proof.Proof.ReduceLines
import Idealize.ShloMosaic.Lib.ValueIdx

noncomputable section

open scoped BigOperators

namespace Cert.ReferenceIdeal.Mix

open Idealize.ShloMosaic Idealize.ShloMosaic.TcCoe Idealize.ShloMosaic.ValueIdx
open Cert.ReferenceIdeal Cert.ReferenceIdeal.Gen Cert.ReferenceIdeal.Read Cert.GaussMix

/-- The summed array at (n, c, l, q, d): the component with parameters (n, c, l, q) at the sample (n, c, d). -/
theorem summand_apply (x0 : (⟨S64x4x4096, .f32⟩ : BufTy).Contents (Elt Ideal)) (x1 : (⟨S64x384, .f32⟩ : BufTy).Contents (Elt Ideal))
    (x2 x3 x4 : (⟨S4x8x4, .i32⟩ : BufTy).Contents (Elt Ideal)) (n : Fin 64) (c : Fin 4) (l : Fin 8) (q : Fin 4) (d : Fin 4096) :
    val_main_v38 (F := Ideal) x0 x1 x2 x3 x4 (ix5 n c l q d)
      = comp (x0 (ix3 n c d)) (val_main_v6 (F := Ideal) x1 x2 (ix4 n c l q)) (val_main_v13 (F := Ideal) x1 x3 (ix4 n c l q))
          (val_main_v20 (F := Ideal) x1 x4 (ix4 n c l q)) := by
  -- the index each re-laying operation reads its operand at
  have ea : idx_main_v29 (idx_main_v37 (ix5 n c l q d)) = ix4 n c l q := by
    funext a; match a with | ⟨0, _⟩ => rfl | ⟨1, _⟩ => rfl | ⟨2, _⟩ => rfl | ⟨3, _⟩ => rfl
  have em : idx_main_v22 (idx_main_v24 (ix5 n c l q d)) = ix4 n c l q := by
    funext a; match a with | ⟨0, _⟩ => rfl | ⟨1, _⟩ => rfl | ⟨2, _⟩ => rfl | ⟨3, _⟩ => rfl
  have es : idx_main_v33 (idx_main_v34 (ix5 n c l q d)) = ix4 n c l q := by
    funext a; match a with | ⟨0, _⟩ => rfl | ⟨1, _⟩ => rfl | ⟨2, _⟩ => rfl | ⟨3, _⟩ => rfl
  have ex : idx_main_v21 (idx_main_v23 (ix5 n c l q d)) = ix3 n c d := by
    funext a; match a with | ⟨0, _⟩ => rfl | ⟨1, _⟩ => rfl | ⟨2, _⟩ => rfl
  rw [val_main_v38_apply, val_main_v37_apply, val_main_v29_apply, val_main_v36_apply, val_main_v35_apply,
    val_main_v32_apply, val_main_v31_apply, val_main_v30_apply, val_main_cst_5_apply, val_main_v25_apply,
    val_main_v23_apply, val_main_v21_apply, val_main_v24_apply, val_main_v22_apply, val_main_v34_apply,
    val_main_v33_apply, val_main_v28_apply, val_main_v27_apply, val_main_cst_apply, val_main_v26_apply,
    ea, em, es, ex]
  rfl

/-- THE REFERENCE'S RESULT is `mix` of the samples and the three gathered arrays: the two-axis sum read as a double
    sum from the initial value zero, its summand the component. -/
theorem result_eq (x0 : (⟨S64x4x4096, .f32⟩ : BufTy).Contents (Elt Ideal)) (x1 : (⟨S64x384, .f32⟩ : BufTy).Contents (Elt Ideal))
    (x2 x3 x4 : (⟨S4x8x4, .i32⟩ : BufTy).Contents (Elt Ideal)) :
    val_main_v39 (F := Ideal) x0 x1 x2 x3 x4
      = mix x0 (val_main_v6 (F := Ideal) x1 x2) (val_main_v13 (F := Ideal) x1 x3) (val_main_v20 (F := Ideal) x1 x4) := by
  funext i
  obtain ⟨n, c, d, rfl⟩ : ∃ (n : Fin 64) (c : Fin 4) (d : Fin 4096), i = ix3 n c d := ⟨i 0, i 1, i 2, eq_ix3 i⟩
  show Ideal.hostReduceAdd reducesTo_S64x4x8x4x4096_S64x4x4096_d2_3 (val_main_v38 (F := Ideal) x0 x1 x2 x3 x4)
      (Ideal.ofBits .f32 0x00000000#32) (ix3 n c d) = _
  rw [reduce_lines, Ideal.ofBits_zero_f32, zero_add]
  unfold mix
  exact Finset.sum_congr rfl fun l _ => Finset.sum_congr rfl fun q _ => summand_apply x0 x1 x2 x3 x4 n c l q d

end Cert.ReferenceIdeal.Mix

end
-- ==== Proof.lean ====
/-
  A superposition of Gaussian spectral lines: for 64 spectra of 4 channels sampled at 4096 wavelength bins, the sum
  over the 8 lines of a channel and the 4 components of a line of

      amp · exp( ((−½ · (x − mu)) · (x − mu)) · (1 / (sigma · sigma)) ),

  the amplitudes, centres and widths being columns of a table of network outputs chosen by three integer index arrays.

  The reference forms the [64, 4, 8, 4, 4096] array of all components and sums it over the line and component axes.
  The kernel flattens (spectrum, channel) to 256 rows and (line, component) to 32 columns, and in each of four row
  blocks adds the 32 components one after the other onto a zero accumulator.  Every component is computed by the same
  operations in the same order on both sides, from the same three gathered arrays; the two programs differ only in the
  order in which the 32 summands are added and in the layout.  Addition of extended reals is commutative and
  associative, so the results are equal for all inputs: finiteness of the inputs is not used.

  Proof/Mixture.lean states the component and the result `mix`; Proof/ReduceLines.lean and Proof/RefMix.lean read the
  reference's two-axis sum as `mix`; Proof/Block.lean reads one block of the kernel's body as the sum over its 32
  columns, Proof/Rows.lean carries the flattened layout back, and Proof/Array.lean puts the four blocks together
  and follows the reshape after the region.  The kernel's runs are the frames of its two printed forms; nothing was
  rewritten when the kernel was idealized.
-/
import proofs.«117157_j28733331210408_1_alg».proof.Defs
import proofs.«117157_j28733331210408_1_alg».proof.Proof.Gen.Kernel
import proofs.«117157_j28733331210408_1_alg».proof.Proof.Gen.Kernel.Skeleton
import proofs.«117157_j28733331210408_1_alg».proof.Proof.Gen.Kernel.Launch
import proofs.«117157_j28733331210408_1_alg».proof.Proof.Gen.Kernel.Points
import proofs.«117157_j28733331210408_1_alg».proof.Proof.Gen.Kernel.Frame
import proofs.«117157_j28733331210408_1_alg».proof.Proof.Gen.KernelIdeal
import proofs.«117157_j28733331210408_1_alg».proof.Proof.Gen.KernelIdeal.Skeleton
import proofs.«117157_j28733331210408_1_alg».proof.Proof.Gen.KernelIdeal.Launch
import proofs.«117157_j28733331210408_1_alg».proof.Proof.Gen.KernelIdeal.Points
import proofs.«117157_j28733331210408_1_alg».proof.Proof.Gen.KernelIdeal.Frame
import proofs.«117157_j28733331210408_1_alg».proof.Proof.Gen.ReferenceIdeal
import proofs.«117157_j28733331210408_1_alg».proof.Proof.Gen.ReferenceIdeal.Run
import proofs.«117157_j28733331210408_1_alg».proof.Proof.Gen.ReferenceIdeal.Read
import proofs.«117157_j28733331210408_1_alg».proof.Proof.Gen.Pre_finite_inputs
import proofs.«117157_j28733331210408_1_alg».proof.Proof.Array
import proofs.«117157_j28733331210408_1_alg».proof.Proof.RefMix
import Idealize.ShloMosaic.Adequacy
import Idealize.ShloMosaic.Init

noncomputable section

namespace Cert.Proof

open Idealize.ShloMosaic Idealize.ShloMosaic.TcCoe Idealize.SL.Sem

/-- The kernel as printed runs to its end with its arguments unchanged. -/
theorem frame_kernel : Cert.frame_Kernel := fun m ρ _ => Cert.Kernel.Gen.frame m ρ

/-- So does its idealized form. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten: there is nothing to preserve. -/
theorem preserves : Cert.preserves_Kernel_KernelIdeal := trivial

/-- Both programs end at `mix` of the samples and of the three parameter arrays gathered from the table: the kernel by
    its blocks, the reference by its two-axis sum; from arguments that agree the gathered arrays are the same. -/
theorem algebraic : Cert.algebraic_KernelIdeal_ReferenceIdeal := by
  intro m ρ m' ρ' _ hagree
  refine ⟨fun c => Cert.GaussMix.mix (m ((c.tc : Thread Cert.KernelIdeal.nD Cert.KernelIdeal.τ).loc Cert.KernelIdeal.main_arg0))
      (Cert.KernelIdeal.Mix.params (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (Cert.KernelIdeal.Mix.params (m ((c.tc : Thread Cert.KernelIdeal.nD Cert.KernelIdeal.τ).loc Cert.KernelIdeal.main_arg1))
        (m ((c.tc : Thread Cert.KernelIdeal.nD Cert.KernelIdeal.τ).loc Cert.KernelIdeal.main_arg3)))
      (Cert.KernelIdeal.Mix.params (m ((c.tc : Thread Cert.KernelIdeal.nD Cert.KernelIdeal.τ).loc Cert.KernelIdeal.main_arg1))
        (m ((c.tc : Thread Cert.KernelIdeal.nD Cert.KernelIdeal.τ).loc Cert.KernelIdeal.main_arg4))),
    Cert.KernelIdeal.Mix.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.Mix.result_eq]
  obtain ⟨h0, h1, h2, h3, h4⟩ := hagree c
  rw [h0, h1, h2, h3, h4]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
